-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x16x8x128 : Shape := ⟨4, ![16, 16, 8, 128]⟩
abbrev S256x256 : Shape := ⟨2, ![256, 256]⟩
abbrev S_ : Shape := ⟨0, ![]⟩

class Facts : Prop where
  bcast_S_S16x16x8x128 : S_.BroadcastsInDim S16x16x8x128 (![] : Fin 0 → Fin S16x16x8x128.rank)
  reducesTo_S16x16x8x128_S_d0_1_2_3 : S16x16x8x128.ReducesTo [0, 1, 2, 3] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  main_v18

def fn {F : FTy → Type} [FloatOps F] (main_arg0 : FVec F S16x16x8x128 .f32) (main_arg1 : FVec F S256x256 .f32) (main_arg2 : FVec F S256x256 .f32) (main_arg3 : FVec F S256x256 .f32) : IVec S_ 1 :=
  let main_v0 : FVec F S16x16x8x128 .f32 := Host.absf main_arg0
  let main_cst : FVec F S_ .f32 := constant S_ .f32 0x7F800000#32
  let main_v1 : FVec F S16x16x8x128 .f32 := broadcastInDim S16x16x8x128 ![] bcast_S_S16x16x8x128 main_cst
  let main_v2 : IVec S16x16x8x128 1 := cmpf .olt main_v0 main_v1
  let main_c : IVec S_ 1 := constantI S_ 1 1#1
  let main_v3 : IVec S_ 1 := (fun x v => Host.reduce IntOp.andi x v reducesTo_S16x16x8x128_S_d0_1_2_3 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_v13 main_v16
-- ==== Kernel.lean ====
abbrev S16x16x8x128 : Shape := ⟨4, ![16, 16, 8, 128]⟩
abbrev S256x256 : Shape := ⟨2, ![256, 256]⟩
abbrev S16x16x256 : Shape := ⟨3, ![16, 16, 256]⟩
abbrev S1x16x8x128 : Shape := ⟨4, ![1, 16, 8, 128]⟩
abbrev S1x16x256 : Shape := ⟨3, ![1, 16, 256]⟩
abbrev S16x8x128 : Shape := ⟨3, ![16, 8, 128]⟩
abbrev S16x1x8x1x128 : Shape := ⟨5, ![16, 1, 8, 1, 128]⟩
abbrev S16x16x8x8x128 : Shape := ⟨5, ![16, 16, 8, 8, 128]⟩
abbrev S1x16x1x8x128 : Shape := ⟨5, ![1, 16, 1, 8, 128]⟩
abbrev S16x16x8x8x256 : Shape := ⟨5, ![16, 16, 8, 8, 256]⟩
abbrev S16384x256 : Shape := ⟨2, ![16384, 256]⟩
abbrev S16x1024x256 : Shape := ⟨3, ![16, 1024, 256]⟩
abbrev S16x256 : Shape := ⟨2, ![16, 256]⟩

abbrev nBuf : Space → Nat
  | .hbm => 11
  | .vmem => 7
  | .smem => 0
  | _ => 0

abbrev bufTy : (tb : Table) → Fin (tcTables nBuf tb) → BufTy
  | .hbm, ⟨0, _⟩ => ⟨S16x16x8x128, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .bf16⟩
  | .hbm, ⟨6, _⟩ => ⟨S256x256, .f32⟩
  | .hbm, ⟨7, _⟩ => ⟨S256x256, .bf16⟩
  | .hbm, ⟨8, _⟩ => ⟨S256x256, .f32⟩
  | .hbm, ⟨9, _⟩ => ⟨S256x256, .bf16⟩
  | .hbm, ⟨10, _⟩ => ⟨S16x16x256, .f32⟩
  | .local _ .vmem, ⟨0, _⟩ => ⟨S1x16x8x128, .f32⟩
  | .local _ .vmem, ⟨1, _⟩ => ⟨S1x16x8x128, .f32⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S1x16x256, .f32⟩
  | .local _ .vmem, ⟨6, _⟩ => ⟨S1x16x256, .f32⟩
  | _, _ => ⟨S16x16x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S256x256_S256x256_1_0 : S256x256.Transposes [1, 0] S256x256
  bitsLt_bf16_f32 : FTy.bits .bf16 < FTy.bits .f32
  inb_S1x16x8x128_S1x16x8x128_0_0_0_0 : ∀ a, (![0, 0, 0, 0] : Fin 4 → Nat) a + S1x16x8x128.size a ≤ S1x16x8x128.size a
  h_S1x16x8x128 : 0 < S1x16x8x128.numel
  shapeCasts_S1x16x8x128_S16x8x128 : S1x16x8x128.ShapeCasts S16x8x128
  shapeCasts_S16x8x128_S16x1x8x1x128 : S16x8x128.ShapeCasts S16x1x8x1x128
  shapeCasts_S16x1x8x1x128_S16x1x8x1x128 : S16x1x8x1x128.ShapeCasts S16x1x8x1x128
  broadcasts_S16x1x8x1x128_S16x16x8x8x128 : S16x1x8x1x128.Broadcasts S16x16x8x8x128
  shapeCasts_S16x8x128_S1x16x1x8x128 : S16x8x128.ShapeCasts S1x16x1x8x128
  shapeCasts_S1x16x1x8x128_S1x16x1x8x128 : S1x16x1x8x128.ShapeCasts S1x16x1x8x128
  broadcasts_S1x16x1x8x128_S16x16x8x8x128 : S1x16x1x8x128.Broadcasts S16x16x8x8x128
  concatenates_S16x16x8x8x128_S16x16x8x8x128_S16x16x8x8x256_d4 : Shape.Concatenates [S16x16x8x8x128, S16x16x8x8x128] S16x16x8x8x256 4
  shapeCasts_S16x16x8x8x256_S16384x256 : S16x16x8x8x256.ShapeCasts S16384x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S16384x256_S16x1024x256 : S16384x256.ShapeCasts S16x1024x256
  reduces_S16x1024x256_S16x256 : S16x1024x256.Reduces [1] S16x256
  inb_S1x16x256_S1x16x256_0_0_0 : ∀ a, (![0, 0, 0] : Fin 3 → Nat) a + S1x16x256.size a ≤ S1x16x256.size a
  h_S1x16x256 : 0 < S1x16x256.numel
  shapeCasts_S1x16x256_S16x256 : S1x16x256.ShapeCasts S16x256
  shapeCasts_S16x256_S1x16x256 : S16x256.ShapeCasts S1x16x256
  dot_S16384x256_S256x256_S16384x256_1_0_0_1_n_n_wf : DotDims.WF S16384x256 S256x256 S16384x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x8x128.size a ≤ S16x16x8x128.size a
  hwx0_0 : ∀ i : grid0.Coords, EltTy.bits .f32 = 32 ∨ (Rect.block (s := S16x16x8x128) S1x16x8x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x256.size a ≤ S16x16x256.size a
  hwx0_4 : ∀ i : grid0.Coords, EltTy.bits .f32 = 32 ∨ (Rect.block (s := S16x16x256) S1x16x256.size (cc0_transform_4 i) (hinb0_4 i)).WholeWords (EltTy.packing .f32)

variable [Facts₀]

def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf

abbrev win0_0 : Pipeline.Window sig grid0 :=
  Pipeline.Window.ofSpec (Memref.whole main_arg0) S1x16x8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x16x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x16x8x128 : Shape := ⟨4, ![16, 16, 8, 128]⟩
abbrev S256x256 : Shape := ⟨2, ![256, 256]⟩
abbrev S16x16x1x8x1x128 : Shape := ⟨6, ![16, 16, 1, 8, 1, 128]⟩
abbrev S16x16x16x8x8x128 : Shape := ⟨6, ![16, 16, 16, 8, 8, 128]⟩
abbrev S16x1x16x1x8x128 : Shape := ⟨6, ![16, 1, 16, 1, 8, 128]⟩
abbrev S16x16x16x8x8x256 : Shape := ⟨6, ![16, 16, 16, 8, 8, 256]⟩
abbrev S_ : Shape := ⟨0, ![]⟩
abbrev S16x16x256 : Shape := ⟨3, ![16, 16, 256]⟩

abbrev nBuf : Space → Nat
  | .hbm => 26
  | .vmem => 0
  | .smem => 0
  | _ => 0

abbrev bufTy : (tb : Table) → Fin (tcTables nBuf tb) → BufTy
  | .hbm, ⟨0, _⟩ => ⟨S16x16x8x128, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S16x16x1x8x1x128, .f32⟩
  | .hbm, ⟨5, _⟩ => ⟨S16x16x16x8x8x128, .f32⟩
  | .hbm, ⟨6, _⟩ => ⟨S16x1x16x1x8x128, .f32⟩
  | .hbm, ⟨7, _⟩ => ⟨S16x16x16x8x8x128, .f32⟩
  | .hbm, ⟨8, _⟩ => ⟨S16x16x16x8x8x256, .f32⟩
  | .hbm, ⟨9, _⟩ => ⟨S16x16x16x8x8x256, .f32⟩
  | .hbm, ⟨10, _⟩ => ⟨S_, .f32⟩
  | .hbm, ⟨11, _⟩ => ⟨S16x16x16x8x8x256, .f32⟩
  | .hbm, ⟨12, _⟩ => ⟨S16x16x16x8x8x256, .f32⟩
  | .hbm, ⟨13, _⟩ => ⟨S16x16x16x8x8x256, .f32⟩
  | .hbm, ⟨14, _⟩ => ⟨S_, .f32⟩
  | .hbm, ⟨15, _⟩ => ⟨S16x16x16x8x8x256, .f32⟩
  | .hbm, ⟨16, _⟩ => ⟨S16x16x16x8x8x256, .f32⟩
  | .hbm, ⟨17, _⟩ => ⟨S16x16x16x8x8x256, .f32⟩
  | .hbm, ⟨18, _⟩ => ⟨S_, .f32⟩
  | .hbm, ⟨19, _⟩ => ⟨S16x16x16x8x8x256, .f32⟩
  | .hbm, ⟨20, _⟩ => ⟨S16x16x16x8x8x256, .f32⟩
  | .hbm, ⟨21, _⟩ => ⟨S_, .f32⟩
  | .hbm, ⟨22, _⟩ => ⟨S16x16x256, .f32⟩
  | .hbm, ⟨23, _⟩ => ⟨S_, .f32⟩
  | .hbm, ⟨24, _⟩ => ⟨S16x16x256, .f32⟩
  | .hbm, ⟨25, _⟩ => ⟨S16x16x256, .f32⟩
  | _, _ => ⟨S16x16x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_call1_cst : Ref sig .tc := ⟨.hbm, 14, rfl⟩
abbrev main_call1_v0 : Ref sig .tc := ⟨.hbm, 15, rfl⟩
abbrev main_v8 : Ref sig .tc := ⟨.hbm, 16, rfl⟩
abbrev main_v9 : Ref sig .tc := ⟨.hbm, 17, rfl⟩
abbrev main_call2_cst : Ref sig .tc := ⟨.hbm, 18, rfl⟩
abbrev main_call2_v0 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩

abbrev nD : Nat := 1
abbrev τ : Topo := Topo.v7x

variable {F : FTy → Type} [FloatOps F]

class Facts₀ : Prop where
  bcast_S16x16x8x128_S16x16x1x8x1x128_0_1_3_5 : S16x16x8x128.BroadcastsInDim S16x16x1x8x1x128 (![0, 1, 3, 5] : Fin 4 → Fin S16x16x1x8x1x128.rank)
  bcast_S16x16x1x8x1x128_S16x16x16x8x8x128_0_1_2_3_4_5 : S16x16x1x8x1x128.BroadcastsInDim S16x16x16x8x8x128 (![0, 1, 2, 3, 4, 5] : Fin 6 → Fin S16x16x16x8x8x128.rank)
  bcast_S16x16x8x128_S16x1x16x1x8x128_0_2_4_5 : S16x16x8x128.BroadcastsInDim S16x1x16x1x8x128 (![0, 2, 4, 5] : Fin 4 → Fin S16x1x16x1x8x128.rank)
  bcast_S16x1x16x1x8x128_S16x16x16x8x8x128_0_1_2_3_4_5 : S16x1x16x1x8x128.BroadcastsInDim S16x16x16x8x8x128 (![0, 1, 2, 3, 4, 5] : Fin 6 → Fin S16x16x16x8x8x128.rank)
  concatenates_S16x16x16x8x8x128_S16x16x16x8x8x128_S16x16x16x8x8x256_d5 : Shape.Concatenates [S16x16x16x8x8x128, S16x16x16x8x8x128] S16x16x16x8x8x256 5
  bcast_S_S16x16x16x8x8x256 : S_.BroadcastsInDim S16x16x16x8x8x256 (![] : Fin 0 → Fin S16x16x16x8x8x256.rank)
  reducesTo_S16x16x16x8x8x256_S16x16x256_d2_3_4 : S16x16x16x8x8x256.ReducesTo [2, 3, 4] S16x16x256
  h_S_ : 0 < S_.numel
  bcast_S_S16x16x256 : S_.BroadcastsInDim S16x16x256 (![] : Fin 0 → Fin S16x16x256.rank)
  dot_S16x16x16x8x8x256_S256x256_S16x16x16x8x8x256_5_1_01234_0_n_n_wf : DotDims.WF S16x16x16x8x8x256 S256x256 S16x16x16x8x8x256 [5] [1] [0, 1, 2, 3, 4] [0] [] []

variable [Facts₀]

def dot_S16x16x16x8x8x256_S256x256_S16x16x16x8x8x256_5_1_01234_0_n_n : DotDims S16x16x16x8x8x256 S256x256 S16x16x16x8x8x256 where
  lhsContracting := [5]
  rhsContracting := [1]
  lhsNonContracting := [0, 1, 2, 3, 4]
  rhsNonContracting := [0]
  lhsBatch := []
  rhsBatch := []
  wf := dot_S16x16x16x8x8x256_S256x256_S16x16x16x8x8x256_5_1_01234_0_n_n_wf

class Facts : Prop extends Facts₀ where

variable [Facts]
-- ==== Proof.Spec.lean ====
/-
  THE FUNCTION BOTH PROGRAMS COMPUTE, on the extended reals.

  The input `enc` is [16, 16, 8, 128]: for a batch `b`, 16 nodes `n` with 8 slots `k` each, a feature vector of 128
  numbers per slot. For a batch `b` and a node `n1`, every other (node, slot, slot) triple (n2, k1, k2) gives a PAIR ROW
  of 256 numbers: the 128 features of slot k1 of node n1 followed by the 128 features of slot k2 of node n2. There are
  16 · 8 · 8 = 1024 such triples; they are numbered q = n2 · 64 + k1 · 8 + k2, the row-major position of (n2, k1, k2).

  Each pair row goes through three layers without bias, each x ↦ max (W x) 0 with W a [256, 256] matrix stored
  [out, in]: output o of a layer is the maximum of 0 and the sum over k of x k · W (o, k). The result at (b, n1, o) is the
  mean over the 1024 pair rows of output o of the third layer: their sum divided by 1024 (the divisor is kept as the
  word both programs print, so it is never evaluated).

  Only + and · of the extended reals and max are used, and a finite sum does not depend on the order of its terms, so
  nothing here needs the inputs to be finite.
-/
import Idealize.ShloMosaic.PureOps.Ideal
import Idealize.ShloMosaic.Lib.ValueIdx

noncomputable section

open scoped BigOperators

namespace Cert.PairMlp

open Idealize.ShloMosaic Idealize.ShloMosaic.ValueIdx

/-- One layer: output `o` is max (∑ k, x k · w k o) 0, the weights given as `w in out`. -/
def layer (w : Fin 256 → Fin 256 → EReal) (x : Fin 256 → EReal) : Fin 256 → EReal :=
  fun o => max (∑ k : Fin 256, x k * w k o) 0

/-- The three layers, one after the other. -/
def mlp (w1 w2 w3 : Fin 256 → Fin 256 → EReal) (x : Fin 256 → EReal) : Fin 256 → EReal :=
  layer w3 (layer w2 (layer w1 x))

/-- A weight matrix stored [out, in], read as `in out`. -/
def wt (W : (⟨2, ![256, 256]⟩ : Shape).Idx → EReal) : Fin 256 → Fin 256 → EReal := fun k o => W (ix2 o k)

/-- The other node of pair position `q = n2 · 64 + k1 · 8 + k2`. -/
def pairN2 (q : Fin 1024) : Fin 16 := ⟨q.val / 64, by have := q.isLt; omega⟩
/-- The slot of the row's own node at pair position `q`. -/
def pairK1 (q : Fin 1024) : Fin 8 := ⟨q.val / 8 % 8, Nat.mod_lt _ (by decide)⟩
/-- The slot of the other node at pair position `q`. -/
def pairK2 (q : Fin 1024) : Fin 8 := ⟨q.val % 8, Nat.mod_lt _ (by decide)⟩

/-- The pair row of batch `b`, node `n1`, pair position `q`: the features of (n1, k1), then those of (n2, k2). -/
def pairRow (enc : (⟨4, ![16, 16, 8, 128]⟩ : Shape).Idx → EReal) (b n1 : Fin 16) (q : Fin 1024) : Fin 256 → EReal :=
  fun c => if h : c.val < 128 then enc (ix4 b n1 (pairK1 q) ⟨c.val, h⟩)
    else enc (ix4 b (pairN2 q) (pairK2 q) ⟨c.val - 128, by have := c.isLt; omega⟩)

/-- The result: at (b, n1, o) the sum over the 1024 pair rows of output `o` of the three layers, divided by 1024. -/
def G (enc : (⟨4, ![16, 16, 8, 128]⟩ : Shape).Idx → EReal) (W1 W2 W3 : (⟨2, ![256, 256]⟩ : Shape).Idx → EReal) :
    (⟨3, ![16, 16, 256]⟩ : Shape).Idx → EReal :=
  fun j => Ideal.div (∑ q : Fin 1024, mlp (wt W1) (wt W2) (wt W3) (pairRow enc (j 0) (j 1) q) (j 2))
    (Ideal.ofBits .f32 0x44800000#32)

/-- The pair position of (n2, k1, k2). -/
def pairPos (n2 : Fin 16) (k1 k2 : Fin 8) : Fin 1024 :=
  ⟨n2.val * 64 + k1.val * 8 + k2.val, by have := n2.isLt; have := k1.isLt; have := k2.isLt; omega⟩

theorem pairN2_pairPos (n2 : Fin 16) (k1 k2 : Fin 8) : pairN2 (pairPos n2 k1 k2) = n2 :=
  Fin.ext (by show (n2.val * 64 + k1.val * 8 + k2.val) / 64 = n2.val; have := k1.isLt; have := k2.isLt; omega)
theorem pairK1_pairPos (n2 : Fin 16) (k1 k2 : Fin 8) : pairK1 (pairPos n2 k1 k2) = k1 :=
  Fin.ext (by show (n2.val * 64 + k1.val * 8 + k2.val) / 8 % 8 = k1.val; have := k1.isLt; have := k2.isLt; omega)
theorem pairK2_pairPos (n2 : Fin 16) (k1 k2 : Fin 8) : pairK2 (pairPos n2 k1 k2) = k2 :=
  Fin.ext (by show (n2.val * 64 + k1.val * 8 + k2.val) % 8 = k2.val; have := k1.isLt; have := k2.isLt; omega)
theorem pairPos_parts (q : Fin 1024) : pairPos (pairN2 q) (pairK1 q) (pairK2 q) = q :=
  Fin.ext (by show q.val / 64 * 64 + q.val / 8 % 8 * 8 + q.val % 8 = q.val; omega)

end Cert.PairMlp

end
-- ==== Proof.LibRowsByCols.lean ====
/-
  A MATRIX PRODUCT OF THE LEFT OPERAND'S ROWS WITH THE RIGHT OPERAND'S COLUMNS, READ AT AN INDEX (general lemmas; they
  mention no program).

  Take dimension numbers of a product [M, K] × [K, N] → [M, N] that contract the left operand's axis 1 with the right
  operand's axis 0, keep the left axis 0 and the right axis 1, and have no batch axes: the plain x · w. The contraction
  index set has one axis of extent K, so it is Fin K; the left operand's index at result index (i, j) and contraction
  position k is (i, k), the right operand's is (k, j). Hence on the extended reals the vector unit's
  accumulate-into-zero product is, at (i, j), the finite sum over k of l (i, k) · r (k, j).
-/
import Idealize.ShloMosaic.PureOps.Ideal.Laws
import Idealize.ShloMosaic.Lib.ValueIdx

noncomputable section

open scoped BigOperators

namespace Cert.Lib.RowsByCols

open Idealize.ShloMosaic Idealize.ShloMosaic.ValueIdx

variable {M K N : Nat} (d : DotDims (⟨2, ![M, K]⟩ : Shape) (⟨2, ![K, N]⟩ : Shape) (⟨2, ![M, N]⟩ : Shape))

/-- The dimension numbers are those of x · w: contract left axis 1 with right axis 0, keep left axis 0 and right
    axis 1, no batch axes. -/
structure Plain : Prop where
  lc : d.lhsContracting = [1]
  rc : d.rhsContracting = [0]
  ln : d.lhsNonContracting = [0]
  rn : d.rhsNonContracting = [1]
  lb : d.lhsBatch = []
  rb : d.rhsBatch = []

variable {d}

theorem contr_rank (h : Plain d) : d.contr.rank = 1 := by rw [d.rank_contr, h.lc]; rfl

theorem contr_size (h : Plain d) : d.contr.size ⟨0, by rw [contr_rank h]; exact Nat.one_pos⟩ = K := by
  have hp : 0 < d.lhsContracting.length := by rw [h.lc]; exact Nat.one_pos
  rw [d.size_contr 0 hp]
  have : d.lhsContracting[0] = (1 : Fin 2) := by simp [h.lc]
  rw [this]; rfl

/-- The left operand's row is the result's row. -/
theorem lhs_row (h : Plain d) (j : (⟨2, ![M, N]⟩ : Shape).Idx) (q : d.contr.Idx) : (d.lhsIdx j q 0).val = (j 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  have key : ∀ (p p' : Nat) (hp : p < (⟨2, ![M, N]⟩ : Shape).rank) (hp' : p' < (⟨2, ![M, N]⟩ : Shape).rank), p = p' → (j ⟨p, hp⟩).val = (j ⟨p', hp'⟩).val :=
    fun p p' hp hp' e => by subst e; rfl
  exact key _ 0 _ Nat.zero_lt_two (by simp [h.lb, h.ln])

/-- The left operand's column is the contraction position. -/
theorem lhs_col (h : Plain d) (j : (⟨2, ![M, N]⟩ : Shape).Idx) (q : d.contr.Idx) :
    (d.lhsIdx j q 1).val = (q ⟨0, by rw [contr_rank h]; exact Nat.one_pos⟩).val :=
  d.lhsIdx_val_of_single h.lc j q

/-- The right operand's row is the contraction position. -/
theorem rhs_row (h : Plain d) (j : (⟨2, ![M, N]⟩ : Shape).Idx) (q : d.contr.Idx) :
    (d.rhsIdx j q 0).val = (q ⟨0, by rw [contr_rank h]; exact Nat.one_pos⟩).val :=
  d.rhsIdx_val_of_single h.rc j q

/-- The right operand's column is the result's column. -/
theorem rhs_col (h : Plain d) (j : (⟨2, ![M, N]⟩ : Shape).Idx) (q : d.contr.Idx) : (d.rhsIdx j q 1).val = (j 1).val := by
  have hb : (1 : Fin (⟨2, ![K, N]⟩ : Shape).rank) ∉ d.rhsBatch := by rw [h.rb]; exact List.not_mem_nil
  have hn : (1 : Fin (⟨2, ![K, N]⟩ : Shape).rank) ∈ d.rhsNonContracting := by rw [h.rn]; exact List.mem_singleton.mpr rfl
  unfold DotDims.rhsIdx
  rw [dif_neg hb, dif_pos hn]
  simp only [Fin.val_cast]
  have key : ∀ (p p' : Nat) (hp : p < (⟨2, ![M, N]⟩ : Shape).rank) (hp' : p' < (⟨2, ![M, N]⟩ : Shape).rank), p = p' → (j ⟨p, hp⟩).val = (j ⟨p', hp'⟩).val :=
    fun p p' hp hp' e => by subst e; rfl
  exact key _ 1 _ Nat.one_lt_two (by simp [h.lb, h.ln, h.rn])

/-- The contraction's sum, re-indexed by the one contracted coordinate. -/
theorem sum_eq (h : Plain d) (l : (⟨2, ![M, K]⟩ : Shape).Idx → EReal) (r : (⟨2, ![K, N]⟩ : Shape).Idx → EReal)
    (j : (⟨2, ![M, N]⟩ : Shape).Idx) :
    ∑ q : d.contr.Idx, l (d.lhsIdx j q) * r (d.rhsIdx j q) = ∑ k : Fin K, l (ix2 (j 0) k) * r (ix2 k (j 1)) := by
  rw [← Equiv.sum_comp (contrEquiv1 d K (contr_rank h) (contr_size h)).symm]
  refine Finset.sum_congr rfl fun k _ => ?_
  have hk := contrEquiv1_symm_val d K (contr_rank h) (contr_size h) k
  have el : d.lhsIdx j ((contrEquiv1 d K (contr_rank h) (contr_size h)).symm k) = ix2 (j 0) k := funext fun a => Fin.ext (by
    match a with
    | ⟨0, _⟩ => exact lhs_row h _ _
    | ⟨1, _⟩ => exact (lhs_col h _ _).trans hk)
  have er : d.rhsIdx j ((contrEquiv1 d K (contr_rank h) (contr_size h)).symm k) = ix2 k (j 1) := funext fun a => Fin.ext (by
    match a with
    | ⟨0, _⟩ => exact (rhs_row h _ _).trans hk
    | ⟨1, _⟩ => exact rhs_col h _ _)
  exact congrArg₂ (· * ·) (congrArg l el) (congrArg r er)

/-- The vector unit's product into the zero accumulator, at an index. -/
theorem matmul_zero_apply (h : Plain d) {φ₁ φ₂ : FTy} (prec : Option ContractPrecision)
    (l : FVec Ideal (⟨2, ![M, K]⟩ : Shape) φ₁) (r : FVec Ideal (⟨2, ![K, N]⟩ : Shape) φ₂) (j : (⟨2, ![M, N]⟩ : Shape).Idx) :
    FloatOps.matmul d prec l r (constant (⟨2, ![M, N]⟩ : Shape) .f32 0x00000000#32) j = ∑ k : Fin K, l (ix2 (j 0) k) * r (ix2 k (j 1)) :=
  (Ideal.matmul_constant_zero_apply d prec l r j).trans (sum_eq h l r j)

end Cert.Lib.RowsByCols

end
-- ==== Proof.KernelBody.lean ====
/-
  THE KERNEL BODY'S STORED VALUE, AT AN INDEX.

  At one grid point the body holds one batch's [1, 16, 8, 128] block and the three weight matrices, already transposed
  to [in, out]. It lays the 16 · 1024 pair rows out as a [16384, 256] array: row n1 · 1024 + q is the pair row of node
  n1 at pair position q (its first 128 entries the features of slot k1 of node n1, broadcast over n2 and k2; its last
  128 those of slot k2 of node n2, broadcast over n1 and k1). Three times it multiplies by a weight matrix into a zero
  accumulator and takes the maximum with 0: at row r that is one layer applied to row r. It then views the result as
  [16, 1024, 256], sums over the middle axis, the 1024 pair positions of a node, and divides by 1024. Changes of float
  format are the identity on the extended reals.
-/
import proofs.«127808_j11209864642931_1_alg».proof.Proof.Gen.KernelIdeal.Skeleton
import proofs.«127808_j11209864642931_1_alg».proof.Proof.Spec
import proofs.«127808_j11209864642931_1_alg».proof.Proof.LibRowsByCols
import Idealize.ShloMosaic.Lib.Pipeline.Value
import Idealize.ShloMosaic.Lib.ValueLayout
import Idealize.ShloMosaic.PureOps.Ideal.Laws

noncomputable section

open scoped BigOperators

namespace Cert.KernelIdeal.Body

open Cert.KernelIdeal Cert.KernelIdeal.Gen Cert.PairMlp
open Idealize.ShloMosaic Idealize.ShloMosaic.ValueIdx

/-! ## The stages of the body -/

/-- The block with its unit batch axis dropped: [16, 8, 128]. -/
def slots (x0 : Vec Ideal S1x16x8x128 .f32) : FVec Ideal S16x8x128 .bf16 :=
  truncf .bf16 (shapeCast S16x8x128 x0 shapeCasts_S1x16x8x128_S16x8x128 : FVec Ideal S16x8x128 .f32) bitsLt_bf16_f32

/-- The features of (n1, k1), broadcast over n2 and k2. -/
def ownHalf (v : FVec Ideal S16x8x128 .bf16) : FVec Ideal S16x16x8x8x128 .bf16 :=
  broadcastTo S16x16x8x8x128
    (shapeCast S16x1x8x1x128 (shapeCast S16x1x8x1x128 v shapeCasts_S16x8x128_S16x1x8x1x128) shapeCasts_S16x1x8x1x128_S16x1x8x1x128)
    broadcasts_S16x1x8x1x128_S16x16x8x8x128

/-- The features of (n2, k2), broadcast over n1 and k1. -/
def otherHalf (v : FVec Ideal S16x8x128 .bf16) : FVec Ideal S16x16x8x8x128 .bf16 :=
  broadcastTo S16x16x8x8x128
    (shapeCast S1x16x1x8x128 (shapeCast S1x16x1x8x128 v shapeCasts_S16x8x128_S1x16x1x8x128) shapeCasts_S1x16x1x8x128_S1x16x1x8x128)
    broadcasts_S1x16x1x8x128_S16x16x8x8x128

/-- The pair rows, one per (n1, n2, k1, k2), laid out as [16384, 256]. -/
def pairsOf (x0 : Vec Ideal S1x16x8x128 .f32) : FVec Ideal S16384x256 .bf16 :=
  shapeCast S16384x256
    (concatenate S16x16x8x8x256 4 [⟨S16x16x8x8x128, ownHalf (slots x0)⟩, ⟨S16x16x8x8x128, otherHalf (slots x0)⟩]
      concatenates_S16x16x8x8x128_S16x16x8x8x128_S16x16x8x8x256_d4)
    shapeCasts_S16x16x8x8x256_S16384x256

/-- One layer on every row: the product with a weight matrix [in, out] into a zero accumulator, then the maximum with 0. -/
def reluDot (x : FVec Ideal S16384x256 .bf16) (w : Vec Ideal S256x256 .bf16) : FVec Ideal S16384x256 .f32 :=
  maximumf
    (matmul dot_S16384x256_S256x256_S16384x256_1_0_0_1_n_n none x
      (shapeCast S256x256 w shapeCasts_S256x256_S256x256 : FVec Ideal S256x256 .bf16) (constant S16384x256 .f32 0x00000000#32))
    (broadcast S16384x256 (Scalar.ofBits .f32 0x00000000#32))

/-- The mean over a node's 1024 rows: the sum over the middle axis of the [16, 1024, 256] view, divided by 1024. -/
def rowMean (y : FVec Ideal S16384x256 .f32) : FVec Ideal S1x16x256 .f32 :=
  shapeCast S1x16x256
    (divf
      (multiReduction .add [1] S16x256 (shapeCast S16x1024x256 y shapeCasts_S16384x256_S16x1024x256) 0x00000000#32
        reduces_S16x1024x256_S16x256 (.inl rfl) rfl)
      (broadcast S16x256 (Scalar.ofBits .f32 0x44800000#32)))
    shapeCasts_S16x256_S1x16x256

/-- The body's stored value is these stages composed. -/
theorem pay_eq (x0 : Vec Ideal S1x16x8x128 .f32) (w1 w2 w3 : Vec Ideal S256x256 .bf16) :
    k0_pay1 (F := Ideal) x0 w1 w2 w3
      = rowMean (reluDot (truncf .bf16 (reluDot (truncf .bf16 (reluDot (pairsOf x0) w1) bitsLt_bf16_f32) w2) bitsLt_bf16_f32) w3) := rfl

/-! ## Each stage at an index -/

/-- The row of the [16384, 256] layout that holds node `n1`'s pair position `q`. -/
def rowAt (n1 : Fin 16) (q : Fin 1024) : Fin 16384 := ⟨n1.val * 1024 + q.val, by have := n1.isLt; have := q.isLt; omega⟩

/-- A weight block [in, out] read as `in out`. -/
def wk (w : S256x256.Idx → EReal) : Fin 256 → Fin 256 → EReal := fun k o => w (ix2 k o)

/-- The pair row of node `n1` at pair position `q`, read off the block. -/
def blockPairRow (x0 : S1x16x8x128.Idx → EReal) (n1 : Fin 16) (q : Fin 1024) : Fin 256 → EReal :=
  fun c => if h : c.val < 128 then x0 (ix4 (0 : Fin 1) n1 (pairK1 q) (⟨c.val, h⟩ : Fin 128))
    else x0 (ix4 (0 : Fin 1) (pairN2 q) (pairK2 q) (⟨c.val - 128, by have := c.isLt; omega⟩ : Fin 128))

theorem slots_apply (x0 : Vec Ideal S1x16x8x128 .f32) (n : Fin 16) (k : Fin 8) (c : Fin 128) :
    slots x0 (ix3 n k c) = x0 (ix4 (0 : Fin 1) n k c) := by
  unfold slots
  show (shapeCast S16x8x128 x0 shapeCasts_S1x16x8x128_S16x8x128 : S16x8x128.Idx → EReal) (ix3 n k c) = _
  exact shapeCast_1abc_abc_apply x0 _ n k c

theorem ownHalf_apply (v : FVec Ideal S16x8x128 .bf16) (n1 n2 : Fin 16) (k1 k2 : Fin 8) (c : Fin 128) :
    ownHalf v (ix5 n1 n2 k1 k2 c) = v (ix3 n1 k1 c) := by
  unfold ownHalf
  rw [shapeCast_self]
  refine (broadcastTo_apply _ _ (ix5 n1 n2 k1 k2 c) (ix5 n1 (0 : Fin 1) k1 (0 : Fin 1) c) (fun a => match a with
    | ⟨0, _⟩ => by show n1.val = if (16 : Nat) = 1 then 0 else n1.val; rw [if_neg (by decide)]
    | ⟨1, _⟩ => by show 0 = if (1 : Nat) = 1 then 0 else n2.val; rw [if_pos rfl]
    | ⟨2, _⟩ => by show k1.val = if (8 : Nat) = 1 then 0 else k1.val; rw [if_neg (by decide)]
    | ⟨3, _⟩ => by show 0 = if (1 : Nat) = 1 then 0 else k2.val; rw [if_pos rfl]
    | ⟨4, _⟩ => by show c.val = if (128 : Nat) = 1 then 0 else c.val; rw [if_neg (by decide)])).trans ?_
  exact shapeCast_apply v _ _ (ix3 n1 k1 c) (by
    rw [Shape.rowMajor_val_three, Shape.rowMajor_val_five]
    show (n1.val * 8 + k1.val) * 128 + c.val = (((n1.val * 1 + 0) * 8 + k1.val) * 1 + 0) * 128 + c.val
    omega)

theorem otherHalf_apply (v : FVec Ideal S16x8x128 .bf16) (n1 n2 : Fin 16) (k1 k2 : Fin 8) (c : Fin 128) :
    otherHalf v (ix5 n1 n2 k1 k2 c) = v (ix3 n2 k2 c) := by
  unfold otherHalf
  rw [shapeCast_self]
  refine (broadcastTo_apply _ _ (ix5 n1 n2 k1 k2 c) (ix5 (0 : Fin 1) n2 (0 : Fin 1) k2 c) (fun a => match a with
    | ⟨0, _⟩ => by show 0 = if (1 : Nat) = 1 then 0 else n1.val; rw [if_pos rfl]
    | ⟨1, _⟩ => by show n2.val = if (16 : Nat) = 1 then 0 else n2.val; rw [if_neg (by decide)]
    | ⟨2, _⟩ => by show 0 = if (1 : Nat) = 1 then 0 else k1.val; rw [if_pos rfl]
    | ⟨3, _⟩ => by show k2.val = if (8 : Nat) = 1 then 0 else k2.val; rw [if_neg (by decide)]
    | ⟨4, _⟩ => by show c.val = if (128 : Nat) = 1 then 0 else c.val; rw [if_neg (by decide)])).trans ?_
  exact shapeCast_apply v _ _ (ix3 n2 k2 c) (by
    rw [Shape.rowMajor_val_three, Shape.rowMajor_val_five]
    show (n2.val * 8 + k2.val) * 128 + c.val = (((0 * 16 + n2.val) * 1 + 0) * 8 + k2.val) * 128 + c.val
    omega)

/-- Row n1 · 1024 + q of the layout is node `n1`'s pair row at position `q`. -/
theorem pairsOf_apply (x0 : Vec Ideal S1x16x8x128 .f32) (n1 : Fin 16) (q : Fin 1024) (c : Fin 256) :
    pairsOf x0 (ix2 (rowAt n1 q) c) = blockPairRow x0 n1 q c := by
  unfold pairsOf blockPairRow
  refine (shapeCast_apply _ _ (ix2 (rowAt n1 q) c) (ix5 n1 (pairN2 q) (pairK1 q) (pairK2 q) c) (by
    rw [Shape.rowMajor_val_five, Shape.rowMajor_val_two]
    show (((n1.val * 16 + q.val / 64) * 8 + q.val / 8 % 8) * 8 + q.val % 8) * 256 + c.val = (n1.val * 1024 + q.val) * 256 + c.val
    have := q.isLt; omega)).trans ?_
  by_cases hc : c.val < 128
  · rw [dif_pos hc]
    refine (concatenate_pair_apply_left (t := S16x16x8x8x256) (s₁ := S16x16x8x8x128) (s₂ := S16x16x8x8x128) (4 : Fin 5) _ _ _
      (ix5 n1 (pairN2 q) (pairK1 q) (pairK2 q) c) rfl (ix5 n1 (pairN2 q) (pairK1 q) (pairK2 q) (⟨c.val, hc⟩ : Fin 128))
      (fun a => match a with | ⟨0, _⟩ => rfl | ⟨1, _⟩ => rfl | ⟨2, _⟩ => rfl | ⟨3, _⟩ => rfl | ⟨4, _⟩ => rfl)).trans ?_
    rw [ownHalf_apply, slots_apply]
  · rw [dif_neg hc]
    have hc' : 128 ≤ c.val := Nat.le_of_not_lt hc
    refine (concatenate_pair_apply_right (t := S16x16x8x8x256) (s₁ := S16x16x8x8x128) (s₂ := S16x16x8x8x128) (4 : Fin 5) _ _ _
      (ix5 n1 (pairN2 q) (pairK1 q) (pairK2 q) c) rfl rfl
      (ix5 n1 (pairN2 q) (pairK1 q) (pairK2 q) (⟨c.val - 128, by have := c.isLt; omega⟩ : Fin 128))
      (fun a => match a with
        | ⟨0, _⟩ => fun _ => rfl | ⟨1, _⟩ => fun _ => rfl | ⟨2, _⟩ => fun _ => rfl | ⟨3, _⟩ => fun _ => rfl
        | ⟨4, _⟩ => fun h => absurd rfl h)
      (by show c.val - 128 + 128 = c.val; omega)).trans ?_
    rw [otherHalf_apply, slots_apply]

/-- One layer, at row `r`: the layer of the specification applied to row `r`. -/
theorem reluDot_apply (x : FVec Ideal S16384x256 .bf16) (w : Vec Ideal S256x256 .bf16) (r : Fin 16384) (o : Fin 256) :
    reluDot x w (ix2 r o) = layer (wk w) (fun k => x (ix2 r k)) o := by
  unfold reluDot layer wk
  show max (FloatOps.matmul dot_S16384x256_S256x256_S16384x256_1_0_0_1_n_n none x
      (shapeCast S256x256 w shapeCasts_S256x256_S256x256 : FVec Ideal S256x256 .bf16)
      (constant S16384x256 .f32 0x00000000#32) (ix2 r o)) (Ideal.ofBits .f32 0x00000000#32) = _
  rw [Cert.Lib.RowsByCols.matmul_zero_apply ⟨rfl, rfl, rfl, rfl, rfl, rfl⟩, shapeCast_self, Ideal.ofBits_zero_f32]

/-- The mean at (0, n1, o): the sum over node `n1`'s 1024 rows of column `o`, divided by 1024. -/
theorem rowMean_apply (y : FVec Ideal S16384x256 .f32) (n1 : Fin 16) (o : Fin 256) :
    rowMean y (ix3 (0 : Fin 1) n1 o) = Ideal.div (∑ q : Fin 1024, y (ix2 (rowAt n1 q) o)) (Ideal.ofBits .f32 0x44800000#32) := by
  unfold rowMean
  rw [shapeCast_ab_1ab_apply, divf_apply, broadcast_apply]
  refine congrArg (fun z => Ideal.div z (Ideal.ofBits .f32 0x44800000#32))
    ((Ideal.multiReduction_add_single _ _ _ _ _ (ix2 n1 o)).trans (Finset.sum_congr rfl fun q _ => ?_))
  exact shapeCast_apply y _ _ (ix2 (rowAt n1 q) o) (by
    rw [Shape.rowMajor_val_two, Shape.rowMajor_val_three]
    show (n1.val * 1024 + q.val) * 256 + o.val = (n1.val * 1024 + q.val) * 256 + o.val
    rfl)

/-! ## The stored value -/

/-- What the body stores at (0, n1, o): the mean over the 1024 pair positions of output `o` of the three layers of node
    `n1`'s pair row, the weights read [in, out] off their blocks. -/
theorem payload_apply (x0 : Vec Ideal S1x16x8x128 .f32) (w1 w2 w3 : Vec Ideal S256x256 .bf16) (n1 : Fin 16) (o : Fin 256) :
    k0_pay1 (F := Ideal) x0 w1 w2 w3 (ix3 (0 : Fin 1) n1 o)
      = Ideal.div (∑ q : Fin 1024, mlp (wk w1) (wk w2) (wk w3) (blockPairRow x0 n1 q) o) (Ideal.ofBits .f32 0x44800000#32) := by
  rw [pay_eq, rowMean_apply]
  refine congrArg (fun z => Ideal.div z (Ideal.ofBits .f32 0x44800000#32)) (Finset.sum_congr rfl fun q _ => ?_)
  have e0 : (fun k => pairsOf x0 (ix2 (rowAt n1 q) k)) = blockPairRow x0 n1 q := funext fun k => pairsOf_apply x0 n1 q k
  have e1 : (fun k => reluDot (pairsOf x0) w1 (ix2 (rowAt n1 q) k)) = layer (wk w1) (blockPairRow x0 n1 q) :=
    funext fun k => (reluDot_apply _ _ _ k).trans (by rw [e0])
  have e2 : (fun k => reluDot (truncf .bf16 (reluDot (pairsOf x0) w1) bitsLt_bf16_f32) w2 (ix2 (rowAt n1 q) k))
      = layer (wk w2) (layer (wk w1) (blockPairRow x0 n1 q)) :=
    funext fun k => (reluDot_apply _ _ _ k).trans (congrArg (fun r => layer (wk w2) r k) e1)
  exact (reluDot_apply _ _ _ o).trans (congrArg (fun r => layer (wk w3) r o) e2)

end Cert.KernelIdeal.Body

end
-- ==== Proof.KernelValue.lean ====
/-
  THE KERNEL'S RESULT ARRAY IS `PairMlp.G` OF ITS ARGUMENTS.

  The grid has one point per batch. Point t is handed batch t of the input, a [1, 16, 8, 128] block, and the three weight
  matrices whole, and writes back block t of the [16, 16, 256] result: rows (t, ·, ·). Before the region the host
  transposes each weight matrix and changes its float format, so the block the body reads holds, at (k, o), the
  argument's entry (o, k): read [in, out], it is the argument read [out, in]. With the body's stored value at an index
  this makes what point t writes back block t of G; the sixteen blocks tile the result, so after the run the array is G.
-/
import proofs.«127808_j11209864642931_1_alg».proof.Proof.Gen.KernelIdeal.Value
import proofs.«127808_j11209864642931_1_alg».proof.Proof.KernelBody
import Idealize.ShloMosaic.Lib.StableHlo.Run

noncomputable section

open scoped BigOperators

namespace Cert.KernelIdeal.Whole

open Cert.KernelIdeal Cert.KernelIdeal.Gen Cert.KernelIdeal.Value Cert.KernelIdeal.Body Cert.PairMlp
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The arrays the region finds, and the blocks a point reads -/

/-- The input and the three weight matrices as launched. -/
abbrev encArr (c : Dev nD) : S16x16x8x128.Idx → EReal := m ((c : Thread nD τ).loc main_arg0)
abbrev wArr1 (c : Dev nD) : S256x256.Idx → EReal := m ((c : Thread nD τ).loc main_arg1)
abbrev wArr2 (c : Dev nD) : S256x256.Idx → EReal := m ((c : Thread nD τ).loc main_arg2)
abbrev wArr3 (c : Dev nD) : S256x256.Idx → EReal := m ((c : Thread nD τ).loc main_arg3)

/-- The blocks point `t` reads, at their literal types. -/
abbrev encBlk (c : Dev nD) (t : Fin cfg0.N) : Vec Ideal S1x16x8x128 .f32 := iblk m c 0 t
abbrev wBlk1 (c : Dev nD) (t : Fin cfg0.N) : Vec Ideal S256x256 .bf16 := iblk m c 1 t
abbrev wBlk2 (c : Dev nD) (t : Fin cfg0.N) : Vec Ideal S256x256 .bf16 := iblk m c 2 t
abbrev wBlk3 (c : Dev nD) (t : Fin cfg0.N) : Vec Ideal S256x256 .bf16 := iblk m c 3 t

/-- The batch a grid point works on. -/
def batchOf (t : Fin cfg0.N) : Fin 16 := ⟨t.val, Nat.lt_of_lt_of_eq t.isLt N_0⟩

/-- The printed index maps over the grid: the input's and the result's block index is (t, 0, …), the weights' (0, 0). -/
theorem index_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- The transposed, re-formatted first weight matrix the region finds, as a term of the argument. -/
theorem V_w1 (c : Dev nD) : (V m c main_v1 : S256x256.Idx → EReal)
    = truncf .bf16 (transpose S256x256 [1, 0] (wArr1 m c) transposes_S256x256_S256x256_1_0 : FVec Ideal S256x256 .f32) bitsLt_bf16_f32 := by
  dsimp only [V, hostOps0]; after_results
theorem V_w2 (c : Dev nD) : (V m c main_v3 : S256x256.Idx → EReal)
    = truncf .bf16 (transpose S256x256 [1, 0] (wArr2 m c) transposes_S256x256_S256x256_1_0 : FVec Ideal S256x256 .f32) bitsLt_bf16_f32 := by
  dsimp only [V, hostOps0]; after_results
theorem V_w3 (c : Dev nD) : (V m c main_v5 : S256x256.Idx → EReal)
    = truncf .bf16 (transpose S256x256 [1, 0] (wArr3 m c) transposes_S256x256_S256x256_1_0 : FVec Ideal S256x256 .f32) bitsLt_bf16_f32 := by
  dsimp only [V, hostOps0]; after_results

/-- Read [in, out], a transposed matrix is the matrix read [out, in]. -/
theorem wk_transposed (W : S256x256.Idx → EReal) :
    wk (truncf .bf16 (transpose S256x256 [1, 0] W transposes_S256x256_S256x256_1_0 : FVec Ideal S256x256 .f32) bitsLt_bf16_f32) = wt W := by
  funext k o
  show transpose S256x256 [1, 0] W transposes_S256x256_S256x256_1_0 (ix2 k o) = W (ix2 o k)
  exact transpose_ix2_apply W _ k o

/-- A weight block is the whole transposed matrix. -/
theorem wBlk1_eq (c : Dev nD) (t : Fin cfg0.N) : wk (wBlk1 m c t) = wt (wArr1 m c) := by
  rw [← wk_transposed, ← V_w1]
  funext k o
  obtain ⟨_, _, _, _, e0, e1, _⟩ := index_facts t
  show V m c main_v1 (((cfg0.win 1).blk t).view.emb (ix2 k o)) = V m c main_v1 (ix2 k o)
  refine congrArg (V m c main_v1) (funext fun a => Fin.ext ?_)
  match a with
  | ⟨0, _⟩ => show win0_1.index t (0 : Fin 2) * 256 + 1 * k.val = k.val; omega
  | ⟨1, _⟩ => show win0_1.index t (1 : Fin 2) * 256 + 1 * o.val = o.val; omega
theorem wBlk2_eq (c : Dev nD) (t : Fin cfg0.N) : wk (wBlk2 m c t) = wt (wArr2 m c) := by
  rw [← wk_transposed, ← V_w2]
  funext k o
  obtain ⟨_, _, _, _, _, _, e0, e1, _⟩ := index_facts t
  show V m c main_v3 (((cfg0.win 2).blk t).view.emb (ix2 k o)) = V m c main_v3 (ix2 k o)
  refine congrArg (V m c main_v3) (funext fun a => Fin.ext ?_)
  match a with
  | ⟨0, _⟩ => show win0_2.index t (0 : Fin 2) * 256 + 1 * k.val = k.val; omega
  | ⟨1, _⟩ => show win0_2.index t (1 : Fin 2) * 256 + 1 * o.val = o.val; omega
theorem wBlk3_eq (c : Dev nD) (t : Fin cfg0.N) : wk (wBlk3 m c t) = wt (wArr3 m c) := by
  rw [← wk_transposed, ← V_w3]
  funext k o
  obtain ⟨_, _, _, _, _, _, _, _, e0, e1, _⟩ := index_facts t
  show V m c main_v5 (((cfg0.win 3).blk t).view.emb (ix2 k o)) = V m c main_v5 (ix2 k o)
  refine congrArg (V m c main_v5) (funext fun a => Fin.ext ?_)
  match a with
  | ⟨0, _⟩ => show win0_3.index t (0 : Fin 2) * 256 + 1 * k.val = k.val; omega
  | ⟨1, _⟩ => show win0_3.index t (1 : Fin 2) * 256 + 1 * o.val = o.val; omega

/-- The input block at point `t` is batch `t` of the input. -/
theorem encBlk_apply (c : Dev nD) (t : Fin cfg0.N) (u : Fin 1) (n : Fin 16) (k : Fin 8) (h : Fin 128) :
    encBlk m c t (ix4 u n k h) = encArr m c (ix4 (batchOf t) n k h) := by
  obtain ⟨e0, e1, e2, e3, _⟩ := index_facts t
  show V m c main_arg0 (((cfg0.win 0).blk t).view.emb (ix4 u n k h)) = _
  rw [V_main_arg0]
  refine congrArg (encArr m c) (funext fun a => Fin.ext ?_)
  have hu := u.isLt
  match a with
  | ⟨0, _⟩ => show win0_0.index t (0 : Fin 4) * 1 + 1 * u.val = t.val; omega
  | ⟨1, _⟩ => show win0_0.index t (1 : Fin 4) * 16 + 1 * n.val = n.val; omega
  | ⟨2, _⟩ => show win0_0.index t (2 : Fin 4) * 8 + 1 * k.val = k.val; omega
  | ⟨3, _⟩ => show win0_0.index t (3 : Fin 4) * 128 + 1 * h.val = h.val; omega

/-- So the pair rows read off the block are the pair rows of batch `t`. -/
theorem blockPairRow_eq (c : Dev nD) (t : Fin cfg0.N) (n1 : Fin 16) (q : Fin 1024) :
    blockPairRow (encBlk m c t) n1 q = pairRow (encArr m c) (batchOf t) n1 q := by
  funext x
  unfold blockPairRow pairRow
  by_cases hx : x.val < 128
  · rw [dif_pos hx, dif_pos hx]; exact encBlk_apply m c t 0 n1 (pairK1 q) _
  · rw [dif_neg hx, dif_neg hx]; exact encBlk_apply m c t 0 (pairN2 q) (pairK2 q) _

/-! ## What a point writes back, the cover, the array after the run -/

theorem zeros3 : (![0, 0, 0] : Fin 3 → Nat) = fun _ => 0 := funext fun a => by fin_cases a <;> rfl
theorem zeros4 : (![0, 0, 0, 0] : Fin 4 → Nat) = fun _ => 0 := funext fun a => by fin_cases a <;> rfl
theorem zeros2 : (![0, 0] : Fin 2 → Nat) = fun _ => 0 := funext fun a => by fin_cases a <;> rfl

/-- The result as a function of the arguments as launched. -/
abbrev result (c : Dev nD) : S16x16x256.Idx → EReal := G (encArr m c) (wArr1 m c) (wArr2 m c) (wArr3 m c)

/-- Point `t` writes back block `t` of the result. -/
theorem flushed_eq (c : Dev nD) (t : Fin cfg0.N) :
    (dats m 0 c).flushed 4 t = ((cfg0.win 4).blk t).view.read (Elt Ideal) (result m c) := by
  rw [flushed4]
  unfold out0_4
  rw [View.canon_unit_zero zeros3]
  simp only [View.ld_unit_zero (S := S1x16x8x128) zeros4, View.ld_unit_zero (S := S256x256) zeros2]
  obtain ⟨_, _, _, _, _, _, _, _, _, _, e0, e1, e2⟩ := index_facts t
  funext y
  obtain ⟨u, n1, o, rfl⟩ : ∃ (u : Fin 1) (n1 : Fin 16) (o : Fin 256), y = ix3 u n1 o := ⟨y 0, y 1, y 2, eq_ix3 y⟩
  obtain rfl : u = 0 := Fin.ext (by have := u.isLt; omega)
  show k0_pay1 (F := Ideal) (encBlk m c t) (wBlk1 m c t) (wBlk2 m c t) (wBlk3 m c t) (ix3 (0 : Fin 1) n1 o)
    = result m c (((cfg0.win 4).blk t).view.emb (ix3 (0 : Fin 1) n1 o))
  refine (payload_apply (encBlk m c t) (wBlk1 m c t) (wBlk2 m c t) (wBlk3 m c t) n1 o).trans ?_
  rw [wBlk1_eq, wBlk2_eq, wBlk3_eq]
  have hemb : ((cfg0.win 4).blk t).view.emb (ix3 (0 : Fin 1) n1 o) = ix3 (batchOf t) n1 o := funext fun a => Fin.ext (by
    match a with
    | ⟨0, _⟩ => show win0_4.index t (0 : Fin 3) * 1 + 1 * 0 = t.val; omega
    | ⟨1, _⟩ => show win0_4.index t (1 : Fin 3) * 16 + 1 * n1.val = n1.val; omega
    | ⟨2, _⟩ => show win0_4.index t (2 : Fin 3) * 256 + 1 * o.val = o.val; omega)
  rw [hemb]
  show _ = Ideal.div (∑ q : Fin 1024, mlp (wt (wArr1 m c)) (wt (wArr2 m c)) (wt (wArr3 m c)) (pairRow (encArr m c) (batchOf t) n1 q) o)
    (Ideal.ofBits .f32 0x44800000#32)
  refine congrArg (fun z => Ideal.div z (Ideal.ofBits .f32 0x44800000#32)) (Finset.sum_congr rfl fun q _ => ?_)
  rw [blockPairRow_eq]

/-- An index of the result is in point `t`'s block iff each coordinate is in the block's range on its axis. -/
theorem mem_block (t : Fin cfg0.N) (i : S16x16x256.Idx) :
    i ∈ ((cfg0.win 4).blk t).view.set ↔ ∀ a : Fin 3, win0_4.index t a * S1x16x256.size a ≤ (i a).val
      ∧ (i a).val < win0_4.index t a * S1x16x256.size a + S1x16x256.size a := by
  show i ∈ ((View.whole main_v6).slice (win0_4.rect t)).set ↔ _
  rw [View.set_slice_whole, Rect.mem_set_unit]
  exact Iff.rfl

/-- Every index (b, n1, o) of the result is in the block of point b. -/
theorem covered (i : S16x16x256.Idx) : ∃ t : Fin cfg0.N, (cfg0.win 4).flush t = true ∧ i ∈ ((cfg0.win 4).blk t).view.set := by
  have h0 : (i 0).val < 16 := (i 0).isLt
  have h1 : (i 1).val < 16 := (i 1).isLt
  have h2 : (i 2).val < 256 := (i 2).isLt
  let t : Fin cfg0.N := ⟨(i 0).val, by rw [show cfg0.N = 16 from N_0]; exact h0⟩
  obtain ⟨_, _, _, _, _, _, _, _, _, _, e0, e1, e2⟩ := index_facts t
  have ht : t.val = (i 0).val := rfl
  refine ⟨t, flush0_4 t, ?_⟩
  rw [mem_block]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 16 ≤ (i 1).val ∧ (i 1).val < win0_4.index t (1 : Fin 3) * 16 + 16; omega
  | ⟨2, _⟩ => show win0_4.index t (2 : Fin 3) * 256 ≤ (i 2).val ∧ (i 2).val < win0_4.index t (2 : Fin 3) * 256 + 256; omega

/-- After the run the result array is `G` of the arguments. -/
theorem final (c : Dev nD) : (dats m 0 c).arrAt 4 cfg0.N = result m c :=
  (dats m 0 c).arrAt_eq_of_cover 4 (result m c) (fun t _ => flushed_eq m c t) covered

/-- The run: every weakly fair execution ends with the result array at `G` of the arguments, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Whole

end
-- ==== Proof.RefValue.lean ====
/-
  THE REFERENCE COMPUTES `PairMlp.G`.

  The reference keeps six axes apart: (b, n1, n2, k1, k2, feature). Its row at (b, n1, n2, k1, k2) is the pair row
  at pair position n2 · 64 + k1 · 8 + k2: the two broadcasts make the first 128 features those of (b, n1, k1) and the
  last 128 those of (b, n2, k2), and the concatenation along the last axis joins them. Each `dot_general` contracts the
  last axis of that array with axis 1 of a weight matrix stored [out, in], and a maximum with the zero constant follows:
  one layer, row by row. The final sum runs over the three axes (n2, k1, k2) at once: the indices that drop to
  (b, n1, o) are exactly the (b, n1, n2, k1, k2, o), one for each pair position. The quotient by 1024 is the host's
  division of extended reals, the same as the kernel's.
-/
import proofs.«127808_j11209864642931_1_alg».proof.Proof.Gen.ReferenceIdeal.Read
import proofs.«127808_j11209864642931_1_alg».proof.Proof.Spec
import Idealize.ShloMosaic.Lib.ValueIdxRank6
import Idealize.ShloMosaic.Lib.IdealHost

noncomputable section

open scoped BigOperators

namespace Cert.ReferenceIdeal.RefValue

open Cert.ReferenceIdeal Cert.ReferenceIdeal.Gen Cert.ReferenceIdeal.Read Cert.PairMlp
open Idealize.ShloMosaic Idealize.ShloMosaic.ValueIdx

/-! ## The pair row -/

/-- The reference's concatenated array at (b, n1, n2, k1, k2, ·) is the pair row at the position of (n2, k1, k2). -/
theorem pairs_apply (x0 : S16x16x8x128.Idx → EReal) (b n1 n2 : Fin 16) (k1 k2 : Fin 8) (c : Fin 256) :
    val_main_v4 (F := Ideal) x0 (ix6 b n1 n2 k1 k2 c) = pairRow x0 b n1 (pairPos n2 k1 k2) c := by
  unfold pairRow val_main_v4
  rw [pairN2_pairPos, pairK1_pairPos, pairK2_pairPos]
  by_cases hc : c.val < 128
  · rw [dif_pos hc]
    refine (concatenate_pair_apply_left (t := S16x16x16x8x8x256) (s₁ := S16x16x16x8x8x128) (s₂ := S16x16x16x8x8x128) (5 : Fin 6) _ _ _
      (ix6 b n1 n2 k1 k2 c) rfl (ix6 b n1 n2 k1 k2 (⟨c.val, hc⟩ : Fin 128))
      (fun a => match a with | ⟨0, _⟩ => rfl | ⟨1, _⟩ => rfl | ⟨2, _⟩ => rfl | ⟨3, _⟩ => rfl | ⟨4, _⟩ => rfl | ⟨5, _⟩ => rfl)).trans ?_
    rw [val_main_v1_apply, val_main_v0_apply]
    exact congrArg x0 (funext fun a => match a with | ⟨0, _⟩ => rfl | ⟨1, _⟩ => rfl | ⟨2, _⟩ => rfl | ⟨3, _⟩ => rfl)
  · rw [dif_neg hc]
    have hc' : 128 ≤ c.val := Nat.le_of_not_lt hc
    refine (concatenate_pair_apply_right (t := S16x16x16x8x8x256) (s₁ := S16x16x16x8x8x128) (s₂ := S16x16x16x8x8x128) (5 : Fin 6) _ _ _
      (ix6 b n1 n2 k1 k2 c) rfl rfl
      (ix6 b n1 n2 k1 k2 (⟨c.val - 128, by have := c.isLt; omega⟩ : Fin 128))
      (fun a => match a with
        | ⟨0, _⟩ => fun _ => rfl | ⟨1, _⟩ => fun _ => rfl | ⟨2, _⟩ => fun _ => rfl | ⟨3, _⟩ => fun _ => rfl
        | ⟨4, _⟩ => fun _ => rfl | ⟨5, _⟩ => fun h => absurd rfl h)
      (by show c.val - 128 + 128 = c.val; omega)).trans ?_
    rw [val_main_v3_apply, val_main_v2_apply]
    exact congrArg x0 (funext fun a => match a with | ⟨0, _⟩ => rfl | ⟨1, _⟩ => rfl | ⟨2, _⟩ => rfl | ⟨3, _⟩ => rfl)

/-! ## One layer, row by row -/

/-- The operand indices of a contraction at (b, n1, n2, k1, k2, o) and position k: the row's entry k, and weight (o, k). -/
theorem lidx_eq (b n1 n2 : Fin 16) (k1 k2 : Fin 8) (o k : Fin 256) :
    lidx_main_v5 (ix6 b n1 n2 k1 k2 o) k = ix6 b n1 n2 k1 k2 k :=
  funext fun a => match a with | ⟨0, _⟩ => rfl | ⟨1, _⟩ => rfl | ⟨2, _⟩ => rfl | ⟨3, _⟩ => rfl | ⟨4, _⟩ => rfl | ⟨5, _⟩ => rfl
theorem ridx_eq (b n1 n2 : Fin 16) (k1 k2 : Fin 8) (o k : Fin 256) :
    ridx_main_v5 (ix6 b n1 n2 k1 k2 o) k = ix2 o k :=
  funext fun a => match a with | ⟨0, _⟩ => rfl | ⟨1, _⟩ => rfl

/-- The row of a six-axis array at (b, n1, n2, k1, k2). -/
def rowOf (y : S16x16x16x8x8x256.Idx → EReal) (b n1 n2 : Fin 16) (k1 k2 : Fin 8) : Fin 256 → EReal :=
  fun c => y (ix6 b n1 n2 k1 k2 c)

/-- The zero the reference's relu compares with. -/
theorem relu_zero0 (i : S16x16x16x8x8x256.Idx) : val_main_call0_v0 (F := Ideal) i = 0 := by
  rw [val_main_call0_v0_apply, val_main_call0_cst_apply]; exact Ideal.ofBits_zero_f32
theorem relu_zero1 (i : S16x16x16x8x8x256.Idx) : val_main_call1_v0 (F := Ideal) i = 0 := by
  rw [val_main_call1_v0_apply, val_main_call1_cst_apply]; exact Ideal.ofBits_zero_f32
theorem relu_zero2 (i : S16x16x16x8x8x256.Idx) : val_main_call2_v0 (F := Ideal) i = 0 := by
  rw [val_main_call2_v0_apply, val_main_call2_cst_apply]; exact Ideal.ofBits_zero_f32

theorem layer1_row (x0 : S16x16x8x128.Idx → EReal) (x1 : S256x256.Idx → EReal) (b n1 n2 : Fin 16) (k1 k2 : Fin 8) :
    rowOf (val_main_v6 (F := Ideal) x0 x1) b n1 n2 k1 k2 = layer (wt x1) (rowOf (val_main_v4 (F := Ideal) x0) b n1 n2 k1 k2) := by
  funext o
  show val_main_v6 (F := Ideal) x0 x1 (ix6 b n1 n2 k1 k2 o) = _
  rw [val_main_v6_apply, val_main_v5_apply, relu_zero0]
  refine congrArg (fun z => max z (0 : EReal)) (Finset.sum_congr rfl fun k _ => ?_)
  rw [lidx_eq, ridx_eq]; rfl

theorem layer2_row (x0 : S16x16x8x128.Idx → EReal) (x1 x2 : S256x256.Idx → EReal) (b n1 n2 : Fin 16) (k1 k2 : Fin 8) :
    rowOf (val_main_v8 (F := Ideal) x0 x1 x2) b n1 n2 k1 k2 = layer (wt x2) (rowOf (val_main_v6 (F := Ideal) x0 x1) b n1 n2 k1 k2) := by
  funext o
  show val_main_v8 (F := Ideal) x0 x1 x2 (ix6 b n1 n2 k1 k2 o) = _
  rw [val_main_v8_apply, val_main_v7_apply, relu_zero1]
  refine congrArg (fun z => max z (0 : EReal)) (Finset.sum_congr rfl fun k _ => ?_)
  rw [show lidx_main_v7 (ix6 b n1 n2 k1 k2 o) k = ix6 b n1 n2 k1 k2 k from lidx_eq b n1 n2 k1 k2 o k,
    show ridx_main_v7 (ix6 b n1 n2 k1 k2 o) k = ix2 o k from ridx_eq b n1 n2 k1 k2 o k]; rfl

theorem layer3_row (x0 : S16x16x8x128.Idx → EReal) (x1 x2 x3 : S256x256.Idx → EReal) (b n1 n2 : Fin 16) (k1 k2 : Fin 8) :
    rowOf (val_main_v10 (F := Ideal) x0 x1 x2 x3) b n1 n2 k1 k2 = layer (wt x3) (rowOf (val_main_v8 (F := Ideal) x0 x1 x2) b n1 n2 k1 k2) := by
  funext o
  show val_main_v10 (F := Ideal) x0 x1 x2 x3 (ix6 b n1 n2 k1 k2 o) = _
  rw [val_main_v10_apply, val_main_v9_apply, relu_zero2]
  refine congrArg (fun z => max z (0 : EReal)) (Finset.sum_congr rfl fun k _ => ?_)
  rw [show lidx_main_v9 (ix6 b n1 n2 k1 k2 o) k = ix6 b n1 n2 k1 k2 k from lidx_eq b n1 n2 k1 k2 o k,
    show ridx_main_v9 (ix6 b n1 n2 k1 k2 o) k = ix2 o k from ridx_eq b n1 n2 k1 k2 o k]; rfl

/-- After the third relu, the row at (b, n1, n2, k1, k2) is the three layers of the pair row. -/
theorem mlp_row (x0 : S16x16x8x128.Idx → EReal) (x1 x2 x3 : S256x256.Idx → EReal) (b n1 n2 : Fin 16) (k1 k2 : Fin 8) :
    rowOf (val_main_v10 (F := Ideal) x0 x1 x2 x3) b n1 n2 k1 k2
      = mlp (wt x1) (wt x2) (wt x3) (pairRow x0 b n1 (pairPos n2 k1 k2)) := by
  rw [layer3_row, layer2_row, layer1_row]
  unfold mlp
  exact congrArg (fun r => layer (wt x3) (layer (wt x2) (layer (wt x1) r))) (funext fun c => pairs_apply x0 b n1 n2 k1 k2 c)

/-! ## The sum over (n2, k1, k2) -/

/-- Dropping the axes (n2, k1, k2) of (b, n1, n2, k1, k2, o) leaves (b, n1, o). -/
theorem drop_ix6 (h : S16x16x16x8x8x256.ReducesTo [2, 3, 4] S16x16x256) (b n1 n2 : Fin 16) (k1 k2 : Fin 8) (o : Fin 256) :
    h.drop (ix6 b n1 n2 k1 k2 o) = ix3 b n1 o :=
  funext fun a => Fin.ext (match a with
    | ⟨0, _⟩ => Shape.ReducesTo.drop_apply_val_of_eq h _ 0 0
    | ⟨1, _⟩ => Shape.ReducesTo.drop_apply_val_of_eq h _ 1 1
    | ⟨2, _⟩ => Shape.ReducesTo.drop_apply_val_of_eq h _ 2 5)

/-- The indices that drop to (b, n1, o) are the (b, n1, n2, k1, k2, o), one per pair position: the sum over them is
    the sum over the 1024 pair positions. -/
theorem sum_dropped (h : S16x16x16x8x8x256.ReducesTo [2, 3, 4] S16x16x256) (x : S16x16x16x8x8x256.Idx → EReal)
    (b n1 : Fin 16) (o : Fin 256) :
    ∑ i ∈ Finset.univ.filter (fun i => h.drop i = ix3 b n1 o), x i
      = ∑ q : Fin 1024, x (ix6 b n1 (pairN2 q) (pairK1 q) (pairK2 q) o) := by
  let pos : S16x16x16x8x8x256.Idx → Fin 1024 := fun i =>
    pairPos (⟨(i 2).val, (i 2).isLt⟩ : Fin 16) (⟨(i 3).val, (i 3).isLt⟩ : Fin 8) (⟨(i 4).val, (i 4).isLt⟩ : Fin 8)
  have key : ∀ i : S16x16x16x8x8x256.Idx, h.drop i = ix3 b n1 o →
      ix6 b n1 (pairN2 (pos i)) (pairK1 (pos i)) (pairK2 (pos i)) o = i := by
    intro i hi
    show ix6 b n1 (pairN2 (pairPos _ _ _)) (pairK1 (pairPos _ _ _)) (pairK2 (pairPos _ _ _)) o = i
    rw [pairN2_pairPos, pairK1_pairPos, pairK2_pairPos]
    have e0 : (i 0).val = b.val := (Shape.ReducesTo.drop_apply_val_of_eq h i 0 0).symm.trans (congrArg (fun z => (z 0).val) hi)
    have e1 : (i 1).val = n1.val := (Shape.ReducesTo.drop_apply_val_of_eq h i 1 1).symm.trans (congrArg (fun z => (z 1).val) hi)
    have e5 : (i 5).val = o.val := (Shape.ReducesTo.drop_apply_val_of_eq h i 2 5).symm.trans (congrArg (fun z => (z 2).val) hi)
    refine (funext fun a => ?_ : _ = i)
    match a with
    | ⟨0, _⟩ => exact Fin.ext e0.symm
    | ⟨1, _⟩ => exact Fin.ext e1.symm
    | ⟨2, _⟩ => rfl
    | ⟨3, _⟩ => rfl
    | ⟨4, _⟩ => rfl
    | ⟨5, _⟩ => exact Fin.ext e5.symm
  refine Finset.sum_nbij' pos (fun q => ix6 b n1 (pairN2 q) (pairK1 q) (pairK2 q) o)
    (fun _ _ => Finset.mem_univ _) (fun q _ => Finset.mem_filter.2 ⟨Finset.mem_univ _, drop_ix6 h b n1 _ _ _ o⟩)
    (fun i hi => key i (Finset.mem_filter.1 hi).2) (fun q _ => pairPos_parts q)
    (fun i hi => congrArg x (key i (Finset.mem_filter.1 hi).2).symm)

/-! ## The result -/

/-- The reference's result array is `G` of its arguments. -/
theorem result_eq (x0 : S16x16x8x128.Idx → EReal) (x1 x2 x3 : S256x256.Idx → EReal) :
    val_main_v13 (F := Ideal) x0 x1 x2 x3 = G x0 x1 x2 x3 := by
  funext j
  obtain ⟨b, n1, o, rfl⟩ : ∃ (b n1 : Fin 16) (o : Fin 256), j = ix3 b n1 o := ⟨j 0, j 1, j 2, eq_ix3 j⟩
  rw [val_main_v13_apply, val_main_v12_apply, val_main_cst_0_apply]
  show Ideal.div (val_main_v11 (F := Ideal) x0 x1 x2 x3 (ix3 b n1 o)) (Ideal.ofBits .f32 0x44800000#32) = _
  unfold G
  refine congrArg (fun z => Ideal.div z (Ideal.ofBits .f32 0x44800000#32)) ?_
  unfold val_main_v11
  rw [hostReduceAdd_apply]
  unfold Ideal.hostReduceAdd
  rw [sum_dropped, show val_main_cst (F := Ideal) (Shape.Idx.first h_S_) = 0 from Ideal.ofBits_zero_f32, zero_add]
  refine Finset.sum_congr rfl fun q _ => ?_
  have := congrFun (mlp_row x0 x1 x2 x3 b n1 (pairN2 q) (pairK1 q) (pairK2 q)) o
  rw [pairPos_parts] at this
  exact this

end Cert.ReferenceIdeal.RefValue

end
-- ==== Proof.lean ====
/-
  The pairwise relation network, kernel against reference, over the extended reals.

  Both programs take an input [16, 16, 8, 128] (batch, node, slot, feature) and three weight matrices [256, 256] stored
  [out, in]. For a batch b and a node n1 they form, for every other node n2 and every pair of slots (k1, k2), the pair row
  of 256 numbers (the features of (b, n1, k1), then those of (b, n2, k2)), send it through three layers x ↦ max (W x) 0, and
  average output o over the 16 · 8 · 8 = 1024 triples (n2, k1, k2): the result [16, 16, 256].

  The kernel works one batch per grid point. It lays the 16 · 1024 pair rows of the batch out as a [16384, 256] array, row
  n1 · 1024 + (n2 · 64 + k1 · 8 + k2), multiplies three times by a weight matrix the host has transposed to [in, out],
  clamps at 0, sums each node's 1024 rows and divides by 1024. The reference keeps the six axes apart, contracts the last
  one with axis 1 of each weight matrix, clamps at 0, sums over the three axes (n2, k1, k2) at once and divides by 1024.
  On the extended reals a change of float format is the identity, a product into a zero accumulator and the host's
  contraction are the same finite sum, and a finite sum does not depend on the order of its terms; so both programs
  compute the one function `PairMlp.G` of the arguments, index by index. No law used needs finiteness, and the
  precondition is never opened.

  The kernel's side: its stored value at an index (Proof/KernelBody.lean), block t of the result as what point t writes
  back, the blocks tiling the result (Proof/KernelValue.lean), over the generated frame run. The reference's side: its
  generated run, read one operation at a time, the concatenation and the three-axis sum by hand (Proof/RefValue.lean).
-/
import proofs.«127808_j11209864642931_1_alg».proof.Defs
import proofs.«127808_j11209864642931_1_alg».proof.Proof.Gen.Kernel
import proofs.«127808_j11209864642931_1_alg».proof.Proof.Gen.Kernel.Skeleton
import proofs.«127808_j11209864642931_1_alg».proof.Proof.Gen.Kernel.Launch
import proofs.«127808_j11209864642931_1_alg».proof.Proof.Gen.Kernel.Points
import proofs.«127808_j11209864642931_1_alg».proof.Proof.Gen.Kernel.Frame
import proofs.«127808_j11209864642931_1_alg».proof.Proof.Gen.KernelIdeal
import proofs.«127808_j11209864642931_1_alg».proof.Proof.Gen.KernelIdeal.Skeleton
import proofs.«127808_j11209864642931_1_alg».proof.Proof.Gen.KernelIdeal.Launch
import proofs.«127808_j11209864642931_1_alg».proof.Proof.Gen.KernelIdeal.Points
import proofs.«127808_j11209864642931_1_alg».proof.Proof.Gen.KernelIdeal.Frame
import proofs.«127808_j11209864642931_1_alg».proof.Proof.Gen.ReferenceIdeal
import proofs.«127808_j11209864642931_1_alg».proof.Proof.Gen.KernelIdeal.Value
import proofs.«127808_j11209864642931_1_alg».proof.Proof.Gen.ReferenceIdeal.Run
import proofs.«127808_j11209864642931_1_alg».proof.Proof.Gen.ReferenceIdeal.Read
import proofs.«127808_j11209864642931_1_alg».proof.Proof.Gen.Pre_finite_inputs
import proofs.«127808_j11209864642931_1_alg».proof.Proof.KernelValue
import proofs.«127808_j11209864642931_1_alg».proof.Proof.RefValue
import Idealize.ShloMosaic.Adequacy
import Idealize.ShloMosaic.Init

noncomputable section

namespace Cert.Proof

open Idealize.ShloMosaic Idealize.SL.Sem

/-- The kernel as printed runs, faults nowhere and leaves its arguments: the generated frame. -/
theorem frame_kernel : Cert.frame_Kernel := fun m ρ _ => Cert.Kernel.Gen.frame m ρ

/-- The same of the idealized kernel. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From arguments that agree, the kernel's result array ends at `G` of them (the blocks its points write tile it) and the
    reference's at its composed term, which is `G` of them too. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v13_eq _ _ _ _).trans (Cert.ReferenceIdeal.RefValue.result_eq _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
